-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x64 .f32) (main_arg1 : IVec S2x800000 32) (main_arg2 : FVec F S128x128 .f32) (main_arg3 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S800000x128 : Shape := ⟨2, ![800000, 128]⟩
abbrev S8000x64 : Shape := ⟨2, ![8000, 64]⟩
abbrev S8000x128 : Shape := ⟨2, ![8000, 128]⟩
abbrev S128x64 : Shape := ⟨2, ![128, 64]⟩
abbrev S64x128 : Shape := ⟨2, ![64, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 46
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x64, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .bf16⟩
  | .hbm, ⟨27, _⟩ => ⟨S1x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S128x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S128x128_S128x128_0_0 : ∀ a, (![0, 0] : Fin 2 → Nat) a + S128x128.size a ≤ S128x128.size a
  h_S128x128 : 0 < S128x128.numel
  slices_S128x128_o0_0_S128x64 : S128x128.Slices ![0, 0] S128x64
  slices_S128x128_o0_64_S128x64 : S128x128.Slices ![0, 64] S128x64
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 53
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x64, .f32⟩
  | .hbm, ⟨27, _⟩ => ⟨S800000x128, .f32⟩
  | .hbm, ⟨28, _⟩ => ⟨S128x128, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.EdgeSpec.lean ====
/-
  What one entry of the per-edge feature matrix is, as a function of the gathered rows.

  For an edge `e` let `c` be the row of the node table picked by the edge's first endpoint and `n` the row
  picked by its second endpoint, both of length 64. With a weight matrix `W` of 128 rows and 128 columns and
  a bias `b` of length 128, output column `o` of the edge's feature row is

      max ( Σ_{k<64} c k · W o k  +  Σ_{k<64} (n k − c k) · W o (64 + k)  +  b o , 0 ).

  One program computes the two sums by two products of 64 terms each, against the first and the second half
  of W's row `o`; the other lays `c` and `n − c` side by side into one row of length 128 and takes a single
  product of 128 terms with the whole row. The two agree because a sum over 128 indices is the sum over
  the first 64 plus the sum over the last 64 — a regrouping of one finite sum in a commutative monoid, which
  on the extended reals needs no finiteness of the summands.
-/
import Idealize.ShloMosaic.Lib.ValueIdx
import Idealize.ShloMosaic.PureOps.Ideal.Laws
import Mathlib.Algebra.BigOperators.Fin

noncomputable section

open scoped BigOperators

namespace Cert.EdgeSpec

open Idealize.ShloMosaic Idealize.ShloMosaic.ValueIdx

/-- Column `k` of the first half of a 128-wide axis. -/
abbrev lo (k : Fin 64) : Fin 128 := Fin.castAdd 64 k
/-- Column `64 + k`: column `k` of the second half. -/
abbrev hi (k : Fin 64) : Fin 128 := Fin.natAdd 64 k

theorem lo_val (k : Fin 64) : (lo k).val = k.val := rfl
theorem hi_val (k : Fin 64) : (hi k).val = 64 + k.val := rfl

/-- A sum over 128 indices is the sum over the first 64 plus the sum over the last 64. -/
theorem sum_halves {M : Type*} [AddCommMonoid M] (f : Fin 128 → M) :
    ∑ k, f k = ∑ k : Fin 64, f (lo k) + ∑ k : Fin 64, f (hi k) :=
  Fin.sum_univ_add (a := 64) (b := 64) f

/-- The gathered rows: one row of 64 entries per edge. -/
abbrev Rows : Shape := ⟨2, ![800000, 64]⟩
/-- The weights: 128 output columns by 128 input columns. -/
abbrev Weights : Shape := ⟨2, ![128, 128]⟩
/-- The bias. -/
abbrev Bias : Shape := ⟨1, ![128]⟩
/-- The per-edge features: one row of 128 entries per edge. -/
abbrev Feats : Shape := ⟨2, ![800000, 128]⟩

/-- Entry `(e, o)` of the edge features from the rows `C` gathered by the first endpoints and `NB` gathered by
    the second endpoints. -/
def edge (C NB : FVec Ideal Rows .f32) (W : FVec Ideal Weights .f32) (b : FVec Ideal Bias .f32)
    (e : Fin 800000) (o : Fin 128) : EReal :=
  max ((∑ k : Fin 64, C (ix2 e k) * W (ix2 o (lo k))
        + ∑ k : Fin 64, (NB (ix2 e k) - C (ix2 e k)) * W (ix2 o (hi k))) + b (ix1 o)) 0

/-- The whole edge-feature matrix. -/
def edgeFeat (C NB : FVec Ideal Rows .f32) (W : FVec Ideal Weights .f32) (b : FVec Ideal Bias .f32) :
    FVec Ideal Feats .f32 := fun i => edge C NB W b (i 0) (i 1)

theorem edgeFeat_apply (C NB : FVec Ideal Rows .f32) (W : FVec Ideal Weights .f32) (b : FVec Ideal Bias .f32)
    (e : Fin 800000) (o : Fin 128) : edgeFeat C NB W b (ix2 e o) = edge C NB W b e o := rfl

end Cert.EdgeSpec

end
-- ==== Proof.RefEdge.lean ====
/-
  The reference's edge features are the specification's.

  The reference lays the first-endpoint rows and the differences (second minus first) side by side along the
  column axis, multiplies the 128-wide rows by the transposed weights, adds the bias broadcast down the rows and
  clips at zero. Read at entry `(e, o)`: the product is a sum over the 128 joined columns; a column below 64
  reads the first-endpoint row, a column `64 + k` reads the difference at `k`; the transposed weights at
  `(k, o)` are the weights at `(o, k)`. Splitting the sum at 64 gives the specification's two sums.
-/
import proofs.«144747_j996432413183_1_alg».proof.Proof.Gen.ReferenceIdeal.Read
import proofs.«144747_j996432413183_1_alg».proof.Proof.EdgeSpec

noncomputable section

open scoped BigOperators

namespace Cert.RefEdge

open Cert.ReferenceIdeal Cert.ReferenceIdeal.Gen Cert.ReferenceIdeal.Read Cert.EdgeSpec
open Idealize.ShloMosaic Idealize.ShloMosaic.ValueIdx

variable (x0 : (⟨S50000x64, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))

/-- A joined column below 64 reads the first-endpoint row at that column. -/
theorem joined_lo (e : Fin 800000) (o : Fin 128) (k : Fin 64) :
    val_main_v19 (F := Ideal) x0 x1 (lidx_main_v21 (ix2 e o) (lo k)) = val_main_v10 (F := Ideal) x0 x1 (ix2 e k) := by
  unfold val_main_v19
  exact concatenate_pair_apply_left (t := S800000x128) 1 (val_main_v10 (F := Ideal) x0 x1) (val_main_v18 (F := Ideal) x0 x1)
    concatenates_S800000x64_S800000x64_S800000x128_d1 (lidx_main_v21 (ix2 e o) (lo k)) rfl (ix2 e k)
    (fun b => match b with | ⟨0, _⟩ => rfl | ⟨1, _⟩ => rfl)

/-- Joined column `64 + k` reads the difference of the two rows at column `k`. -/
theorem joined_hi (e : Fin 800000) (o : Fin 128) (k : Fin 64) :
    val_main_v19 (F := Ideal) x0 x1 (lidx_main_v21 (ix2 e o) (hi k))
      = val_main_v17 (F := Ideal) x0 x1 (ix2 e k) - val_main_v10 (F := Ideal) x0 x1 (ix2 e k) := by
  unfold val_main_v19
  refine (concatenate_pair_apply_right (t := S800000x128) 1 (val_main_v10 (F := Ideal) x0 x1) (val_main_v18 (F := Ideal) x0 x1)
    concatenates_S800000x64_S800000x64_S800000x128_d1 (lidx_main_v21 (ix2 e o) (hi k)) rfl rfl (ix2 e k)
    (fun b hb => match b, hb with | ⟨0, _⟩, _ => rfl | ⟨1, _⟩, hb => absurd rfl hb) (Nat.add_comm k.val 64)).trans ?_
  rfl

/-- The transposed weights at `(k, o)` are the weights at `(o, k)`. -/
theorem weights_at (e : Fin 800000) (o : Fin 128) (k : Fin 128) :
    val_main_v20 (F := Ideal) x2 (ridx_main_v21 (ix2 e o) k) = x2 (ix2 o k) :=
  (val_main_v20_apply x2 _).trans (congrArg x2 (funext fun a => Fin.ext (by
    match a with
    | ⟨0, _⟩ => rfl
    | ⟨1, _⟩ => rfl)))

/-- The bias broadcast down the rows reads the bias at the column. -/
theorem bias_at (e : Fin 800000) (o : Fin 128) : val_main_v23 (F := Ideal) x3 (ix2 e o) = x3 (ix1 o) := by
  rw [val_main_v23_apply, val_main_v22_apply]
  exact congrArg x3 (funext fun a => Fin.ext (by
    match a with
    | ⟨0, _⟩ => rfl))

/-- The reference's clipped edge features, as one array, are the specification's of the two gathered arrays. -/
theorem relu_stage :
    val_main_v25 (F := Ideal) x0 x1 x2 x3
      = edgeFeat (val_main_v10 (F := Ideal) x0 x1) (val_main_v17 (F := Ideal) x0 x1) x2 x3 := by
  funext i
  obtain ⟨e, o, rfl⟩ : ∃ (e : Fin 800000) (o : Fin 128), i = ix2 e o := ⟨i 0, i 1, eq_ix2 i⟩
  rw [edgeFeat_apply, val_main_v25_apply, val_main_v24_apply, val_main_v21_apply, sum_halves, bias_at,
    val_main_call0_v0_apply, val_main_call0_cst_apply]
  simp only [joined_lo, joined_hi, weights_at]
  simp only [Ideal.maximumf_def, Ideal.addf_def, Ideal.ofBits_def, Ideal.ofBits_zero_f32]
  rfl

/-! ## The aggregation over the edges -/

/-- What both programs do with the edge features: add each edge's feature row into the row of the node its first
    endpoint names (taken as given, not wrapped), count the edges per node the same way, raise the counts to at
    least one, and divide each node's summed row by its count. `x1` holds the two endpoint arrays. -/
def aggregateBy (row : (⟨S800000, .i32⟩ : BufTy).Contents (Elt Ideal)) (ef : FVec Ideal S800000x128 .f32) :
    FVec Ideal S50000x128 .f32 :=
  Host.divf (F := Ideal)
    (Host.scatterAdd (F := Ideal) scatter_S50000x128_S800000x1_S800000x128_1_0_0_1 (val_main_v26 (F := Ideal))
      (broadcastInDim S800000x1 ![0] bcast_S800000_S800000x1_0 row) ef)
    (broadcastInDim S50000x128 ![0, 1] bcast_S50000x1_S50000x128_0_1
      (broadcastInDim S50000x1 ![0] bcast_S50000_S50000x1_0
        (maximumf (val_main_call1_v1 (F := Ideal))
          (Host.scatterAdd (F := Ideal) scatter_S50000_S800000x1_S800000_n_0_0_1 (val_main_v30 (F := Ideal))
            (broadcastInDim S800000x1 ![0] bcast_S800000_S800000x1_0 row) (val_main_v29 (F := Ideal))))))

/-- The same with the first endpoints read off the endpoint array `x1`. -/
def aggregate (x1 : (⟨S2x800000, .i32⟩ : BufTy).Contents (Elt Ideal)) (ef : FVec Ideal S800000x128 .f32) :
    FVec Ideal S50000x128 .f32 :=
  aggregateBy (val_main_v1 (F := Ideal) x1) ef

/-- The reference's result is the aggregation of the specification's edge features. -/
theorem result_eq :
    val_main_v36 (F := Ideal) x0 x1 x2 x3
      = aggregate x1 (edgeFeat (val_main_v10 (F := Ideal) x0 x1) (val_main_v17 (F := Ideal) x0 x1) x2 x3) := by
  rw [← relu_stage]
  rfl

end Cert.RefEdge

end
-- ==== Proof.KernelPayload.lean ====
/-
  The kernel body's arithmetic at one entry of a block.

  A block holds 8000 edges. From the block `c` of first-endpoint rows, the block `n` of second-endpoint rows
  (each 8000 by 64), the whole weight matrix `W` (128 by 128) and the bias as one row `b` (1 by 128), the body
  stores, at row `p` and column `o`,

      max ( Σ_{k<64} c p k · W o k  +  Σ_{k<64} (n p k − c p k) · W o (64 + k)  +  b 0 o , 0 ).

  The two sums are the body's two matrix products, each into a zero accumulator: the left factors are the
  block `c` and the difference `n − c`; the right factors are the left and the right half of `W`'s columns,
  transposed, so that entry `(k, o)` of a right factor is `W o k`, respectively `W o (64 + k)`. Changes of
  float format are the identity on extended reals.
-/
import proofs.«144747_j996432413183_1_alg».proof.Proof.Gen.KernelIdeal.Skeleton
import proofs.«144747_j996432413183_1_alg».proof.Proof.EdgeSpec
import Idealize.ShloMosaic.Lib.Pipeline.Value
import Idealize.ShloMosaic.Lib.ValueIdx
import Idealize.ShloMosaic.PureOps.Ideal.Laws

noncomputable section

open scoped BigOperators

namespace Cert.KernelPayload

open Cert.KernelIdeal Cert.KernelIdeal.Gen Cert.EdgeSpec
open Idealize.ShloMosaic Idealize.ShloMosaic.ValueIdx

/-! ## The product of a block of rows with a 64 by 128 factor -/

theorem lhs_prod_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhs_prod_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhs_prod_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhs_prod_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- A block of rows times a 64 by 128 factor, into a zero accumulator, at `(p, o)`: the sum over the 64
    contracted columns. -/
theorem prod_at (A : FVec Ideal S8000x64 .bf16) (B : FVec Ideal S64x128 .bf16) (p : Fin 8000) (o : Fin 128) :
    matmul dot_S8000x64_S64x128_S8000x128_1_0_0_1_n_n none A B (constant S8000x128 .f32 0x00000000#32) (ix2 p o)
      = ∑ k : Fin 64, A (ix2 p k) * B (ix2 k o) := by
  simp only [matmul]
  rw [Ideal.matmul_constant_zero_apply, ← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p o) ((ValueIdx.contrEquiv1 dot_S8000x64_S64x128_S8000x128_1_0_0_1_n_n 64 rfl rfl).symm k) = ix2 p k := funext fun a => Fin.ext (by
    match a with
    | ⟨0, _⟩ => exact lhs_prod_0 _ _
    | ⟨1, _⟩ => exact (lhs_prod_1 _ _).trans hk)
  have er : dot_S8000x64_S64x128_S8000x128_1_0_0_1_n_n.rhsIdx (ix2 p o) ((ValueIdx.contrEquiv1 dot_S8000x64_S64x128_S8000x128_1_0_0_1_n_n 64 rfl rfl).symm k) = ix2 k o := funext fun a => Fin.ext (by
    match a with
    | ⟨0, _⟩ => exact (rhs_prod_0 _ _).trans hk
    | ⟨1, _⟩ => exact rhs_prod_1 _ _)
  rw [el, er]

/-! ## The two halves of the weights, transposed -/

/-- The left half of the weights' columns, transposed, at `(k, o)`: the weights at `(o, k)`. -/
theorem left_half_at (W : FVec Ideal S128x128 .f32) (k : Fin 64) (o : Fin 128) :
    transpose S64x128 [1, 0] (truncf .bf16 (extractStridedSlice S128x64 ![0, 0] W slices_S128x128_o0_0_S128x64) bitsLt_bf16_f32)
        transposes_S128x64_p1_0_S64x128 (ix2 k o) = W (ix2 o (lo k)) :=
  (transpose_apply [1, 0] _ transposes_S128x64_p1_0_S64x128 (ix2 k o) (ix2 o k) (fun b => match b with
    | ⟨0, _⟩ => rfl
    | ⟨1, _⟩ => rfl)).trans
  (extractStridedSlice_apply ![0, 0] W slices_S128x128_o0_0_S128x64 (ix2 o k) (ix2 o (lo k)) (fun a => match a with
    | ⟨0, _⟩ => by show o.val = 0 + o.val; omega
    | ⟨1, _⟩ => by show k.val = 0 + k.val; omega))

/-- The right half of the weights' columns, transposed, at `(k, o)`: the weights at `(o, 64 + k)`. -/
theorem right_half_at (W : FVec Ideal S128x128 .f32) (k : Fin 64) (o : Fin 128) :
    transpose S64x128 [1, 0] (truncf .bf16 (extractStridedSlice S128x64 ![0, 64] W slices_S128x128_o0_64_S128x64) bitsLt_bf16_f32)
        transposes_S128x64_p1_0_S64x128 (ix2 k o) = W (ix2 o (hi k)) :=
  (transpose_apply [1, 0] _ transposes_S128x64_p1_0_S64x128 (ix2 k o) (ix2 o k) (fun b => match b with
    | ⟨0, _⟩ => rfl
    | ⟨1, _⟩ => rfl)).trans
  (extractStridedSlice_apply ![0, 64] W slices_S128x128_o0_64_S128x64 (ix2 o k) (ix2 o (hi k)) (fun a => match a with
    | ⟨0, _⟩ => by show o.val = 0 + o.val; omega
    | ⟨1, _⟩ => by show 64 + k.val = 64 + k.val; rfl))

/-! ## The bias row broadcast down the block -/

/-- The one-row bias broadcast to the block's 8000 rows reads, at `(p, o)`, the row at column `o`. -/
theorem bias_row_at (b : FVec Ideal S1x128 .f32) (p : Fin 8000) (o : Fin 128) :
    broadcastTo S8000x128 (shapeCast S1x128 b shapeCasts_S1x128_S1x128) broadcasts_S1x128_S8000x128 (ix2 p o)
      = b (ix2 (0 : Fin 1) o) := by
  rw [shapeCast_self]
  exact broadcastTo_apply b broadcasts_S1x128_S8000x128 (ix2 p o) (ix2 (0 : Fin 1) o) (fun a => match a with
    | ⟨0, _⟩ => by show 0 = if (1 : Nat) = 1 then 0 else _; rw [if_pos rfl]
    | ⟨1, _⟩ => by show o.val = if (128 : Nat) = 1 then 0 else o.val; rw [if_neg (by decide)])

/-! ## The stored value at an entry -/

/-- What the body stores at row `p`, column `o` of its output block. -/
theorem stored_at (c n : Vec Ideal S8000x64 .bf16) (W : Vec Ideal S128x128 .f32) (b : Vec Ideal S1x128 .f32)
    (p : Fin 8000) (o : Fin 128) :
    k0_pay1 (F := Ideal) c n W b (ix2 p o)
      = max ((∑ k : Fin 64, c (ix2 p k) * W (ix2 o (lo k))
          + ∑ k : Fin 64, (n (ix2 p k) - c (ix2 p k)) * W (ix2 o (hi k))) + b (ix2 (0 : Fin 1) o)) 0 := by
  unfold k0_pay1
  refine congrArg₂ max (congrArg₂ (· + ·) (congrArg₂ (· + ·) ?_ ?_) (bias_row_at b p o)) Ideal.ofBits_zero_f32
  · refine (prod_at _ _ p o).trans (Finset.sum_congr rfl fun k _ => ?_)
    exact congrArg₂ (· * ·) (congrFun (shapeCast_self c shapeCasts_S8000x64_S8000x64) (ix2 p k)) (left_half_at W k o)
  · refine (prod_at _ _ p o).trans (Finset.sum_congr rfl fun k _ => ?_)
    refine congrArg₂ (· * ·) ?_ (right_half_at W k o)
    exact congrArg₂ (· - ·) (congrFun (shapeCast_self n shapeCasts_S8000x64_S8000x64) (ix2 p k))
      (congrFun (shapeCast_self c shapeCasts_S8000x64_S8000x64) (ix2 p k))

end Cert.KernelPayload

end
-- ==== Proof.KernelArray.lean ====
/-
  The edge-feature array the kernel region leaves.

  The region runs over 100 grid points; point `t` works on edges `8000 t … 8000 t + 7999`. Its two row inputs are
  the matching 8000-row blocks of the two gathered arrays, the weights and the one-row bias are read whole at every
  point, and the point writes back rows `8000 t … 8000 t + 7999` of the output. Entry `(p, o)` of what point `t`
  writes back is the body's stored value there, which is the specification's entry `(8000 t + p, o)` of the whole
  arrays. The 100 output blocks tile the 800000 rows (row `r` lies in block `r / 8000`), so after the region the
  output array is the specification's edge-feature matrix of the two gathered arrays, the weights and the bias.
-/
import proofs.«144747_j996432413183_1_alg».proof.Proof.Gen.KernelIdeal.Frame
import proofs.«144747_j996432413183_1_alg».proof.Proof.KernelPayload
import proofs.«144747_j996432413183_1_alg».proof.Proof.EdgeSpec
import Idealize.ShloMosaic.Lib.Pipeline.Value
import Idealize.ShloMosaic.Lib.ValueIdx

set_option maxRecDepth 16384

noncomputable section

open scoped BigOperators

namespace Cert.KernelArray

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The arrays the region finds -/

/-- The rows gathered by the edges' first endpoints, as the region finds them. -/
abbrev firstRows (c : Dev nD) : FVec Ideal Rows .f32 := V m c main_v11
/-- The rows gathered by the edges' second endpoints. -/
abbrev secondRows (c : Dev nD) : FVec Ideal Rows .f32 := V m c main_v18
/-- The weights. -/
abbrev weights (c : Dev nD) : FVec Ideal Weights .f32 := V m c main_arg2
/-- The bias as the one-row matrix the region is given. -/
abbrev biasRow (c : Dev nD) : FVec Ideal S1x128 .f32 := V m c main_v19
/-- The bias as a vector: the one row's entries. -/
def biasVec (c : Dev nD) : FVec Ideal Bias .f32 := fun i => biasRow m c (ix2 (0 : Fin 1) (i 0))

/-- The edge-feature matrix of those arrays. -/
def feats (c : Dev nD) : FVec Ideal Feats .f32 :=
  edgeFeat (firstRows m c) (secondRows m c) (weights m c) (biasVec m c)

theorem feats_at (c : Dev nD) (i : Feats.Idx) (e : Fin 800000) (o : Fin 128) (h0 : (i 0).val = e.val) (h1 : (i 1).val = o.val) :
    feats m c i = edge (firstRows m c) (secondRows m c) (weights m c) (biasVec m c) e o := by
  have hi : i = ix2 e o := funext fun a => Fin.ext (by
    match a with
    | ⟨0, _⟩ => exact h0
    | ⟨1, _⟩ => exact h1)
  rw [hi]
  rfl

/-! ## Where each window's block sits -/

theorem hz : (![0, 0] : Fin 2 → Nat) = fun _ => 0 := funext fun a => by fin_cases a <;> rfl

/-- The printed index maps over the grid: the two row inputs and the output move together along the rows, one block
    per point; the weights and the bias stay at block zero; no window moves along the columns. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the first input's block at point `t` is row `8000 t + p` of the first gathered array. -/
theorem first_block_at (c : Dev nD) (t : Fin cfg0.N) (p : Fin 8000) (k : Fin 64) (e : Fin 800000)
    (he : e.val = 8000 * t.val + p.val) :
    (iblk m c 0 t : Vec Ideal S8000x64 .bf16) (ix2 p k) = firstRows m c (ix2 e k) := by
  obtain ⟨f0, f1, -⟩ := block_indices t
  unfold iblk
  rw [View.read_apply]
  show V m c main_v11 _ = V m c main_v11 _
  congr 1
  funext a
  apply Fin.ext
  match a with
  | ⟨0, _⟩ => show win0_0.index t (0 : Fin 2) * 8000 + 1 * p.val = e.val; rw [f0, he]; omega
  | ⟨1, _⟩ => show win0_0.index t (1 : Fin 2) * 64 + 1 * k.val = k.val; rw [f1]; omega

/-- Row `p` of the second input's block at point `t` is row `8000 t + p` of the second gathered array. -/
theorem second_block_at (c : Dev nD) (t : Fin cfg0.N) (p : Fin 8000) (k : Fin 64) (e : Fin 800000)
    (he : e.val = 8000 * t.val + p.val) :
    (iblk m c 1 t : Vec Ideal S8000x64 .bf16) (ix2 p k) = secondRows m c (ix2 e k) := by
  obtain ⟨-, -, f0, f1, -⟩ := block_indices t
  unfold iblk
  rw [View.read_apply]
  show V m c main_v18 _ = V m c main_v18 _
  congr 1
  funext a
  apply Fin.ext
  match a with
  | ⟨0, _⟩ => show win0_1.index t (0 : Fin 2) * 8000 + 1 * p.val = e.val; rw [f0, he]; omega
  | ⟨1, _⟩ => show win0_1.index t (1 : Fin 2) * 64 + 1 * k.val = k.val; rw [f1]; omega

/-- The weights' block is the whole matrix at every point. -/
theorem weights_block_at (c : Dev nD) (t : Fin cfg0.N) (o : Fin 128) (k : Fin 128) :
    (iblk m c 2 t : Vec Ideal S128x128 .f32) (ix2 o k) = weights m c (ix2 o k) := by
  obtain ⟨-, -, -, -, f0, f1, -⟩ := block_indices t
  unfold iblk
  rw [View.read_apply]
  show V m c main_arg2 _ = V m c main_arg2 _
  congr 1
  funext a
  apply Fin.ext
  match a with
  | ⟨0, _⟩ => show win0_2.index t (0 : Fin 2) * 128 + 1 * o.val = o.val; rw [f0]; omega
  | ⟨1, _⟩ => show win0_2.index t (1 : Fin 2) * 128 + 1 * k.val = k.val; rw [f1]; omega

/-- The bias's block is the whole row at every point. -/
theorem bias_block_at (c : Dev nD) (t : Fin cfg0.N) (o : Fin 128) :
    (iblk m c 3 t : Vec Ideal S1x128 .f32) (ix2 (0 : Fin 1) o) = biasRow m c (ix2 (0 : Fin 1) o) := by
  obtain ⟨-, -, -, -, -, -, f0, f1, -⟩ := block_indices t
  unfold iblk
  rw [View.read_apply]
  show V m c main_v19 _ = V m c main_v19 _
  congr 1
  funext a
  apply Fin.ext
  match a with
  | ⟨0, _⟩ => show win0_3.index t (0 : Fin 2) * 1 + 1 * 0 = 0; rw [f0]
  | ⟨1, _⟩ => show win0_3.index t (1 : Fin 2) * 128 + 1 * o.val = o.val; rw [f1]; omega

/-! ## What a point writes back -/

/-- Point `t` writes back block `t` of the edge-feature matrix. -/
theorem flushed_eq (c : Dev nD) (t : Fin cfg0.N) :
    (dats m 0 c).flushed 4 t = ((cfg0.win 4).blk t).view.read (Elt Ideal) (feats m c) := by
  show (cfg0.win 4).cut (grid0.coords t) ((dats m 0 c).after 4 t) = _
  rw [after0_4]
  unfold out0_4
  rw [View.canon_unit_zero hz]
  simp only [View.ld_unit_zero (S := S8000x64) hz, View.ld_unit_zero (S := S128x128) hz, View.ld_unit_zero (S := S1x128) hz]
  obtain ⟨-, -, -, -, -, -, -, -, g0, g1⟩ := block_indices t
  have hN : t.val < 100 := lt_of_lt_of_eq t.isLt N_0
  funext j
  obtain ⟨p, o, rfl⟩ : ∃ (p : Fin 8000) (o : Fin 128), j = ix2 p o := ⟨j 0, j 1, eq_ix2 j⟩
  have hp : p.val < 8000 := p.isLt
  refine (Cert.KernelPayload.stored_at (iblk m c 0 t) (iblk m c 1 t) (iblk m c 2 t) (iblk m c 3 t) p o).trans ?_
  refine Eq.trans ?_ (feats_at m c (((cfg0.win 4).blk t).view.emb (ix2 p o)) ⟨8000 * t.val + p.val, by omega⟩ o
    (by show win0_4.index t (0 : Fin 2) * 8000 + 1 * p.val = 8000 * t.val + p.val; rw [g0]; omega)
    (by show win0_4.index t (1 : Fin 2) * 128 + 1 * o.val = o.val; rw [g1]; omega)).symm
  unfold edge
  refine congrArg₂ max (congrArg₂ (· + ·) (congrArg₂ (· + ·) ?_ ?_) ?_) rfl
  · refine Finset.sum_congr rfl fun k _ => ?_
    exact congrArg₂ (· * ·) (first_block_at m c t p k _ rfl) (weights_block_at m c t o (lo k))
  · refine Finset.sum_congr rfl fun k _ => ?_
    exact congrArg₂ (· * ·) (congrArg₂ (· - ·) (second_block_at m c t p k _ rfl) (first_block_at m c t p k _ rfl))
      (weights_block_at m c t o (hi k))
  · exact bias_block_at m c t o

/-! ## The blocks tile the array -/

/-- An index of the output array is in point `t`'s block iff each coordinate is in the block's range on its axis. -/
theorem mem_block (t : Fin cfg0.N) (i : S800000x128.Idx) :
    i ∈ ((cfg0.win 4).blk t).view.set ↔ ∀ a : Fin 2, win0_4.index t a * S8000x128.size a ≤ (i a).val ∧ (i a).val < win0_4.index t a * S8000x128.size a + S8000x128.size a := by
  show i ∈ ((View.whole main_v20).slice (win0_4.rect t)).set ↔ _
  rw [View.set_slice_whole, Rect.mem_set_unit]
  exact Iff.rfl

/-- Every row is in some point's block: row `r` in that of point `r / 8000`. -/
theorem blocks_cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 100 := N_0
  refine ⟨⟨(i 0).val / 8000, by rw [hN]; omega⟩, flush0_4 _, ?_⟩
  rw [mem_block]
  obtain ⟨-, -, -, -, -, -, -, -, g0, g1⟩ := block_indices ⟨(i 0).val / 8000, by rw [hN]; omega⟩
  intro a
  match a with
  | ⟨0, _⟩ =>
    show win0_4.index _ (0 : Fin 2) * 8000 ≤ (i 0).val ∧ (i 0).val < win0_4.index _ (0 : Fin 2) * 8000 + 8000
    rw [g0]; show (i 0).val / 8000 * 8000 ≤ (i 0).val ∧ (i 0).val < (i 0).val / 8000 * 8000 + 8000; omega
  | ⟨1, _⟩ =>
    show win0_4.index _ (1 : Fin 2) * 128 ≤ (i 1).val ∧ (i 1).val < win0_4.index _ (1 : Fin 2) * 128 + 128
    rw [g1]; omega

/-- After the region the output array is the edge-feature matrix. -/
theorem feats_array (c : Dev nD) : (dats m 0 c).arrAt 4 cfg0.N = feats m c :=
  (dats m 0 c).arrAt_eq_of_cover 4 (feats m c) (fun t _ => flushed_eq m c t) (blocks_cover)

end Cert.KernelArray

end
-- ==== Proof.KernelResult.lean ====
/-
  The kernel program's result.

  Before the region the host lines split the endpoint array into its two rows, wrap negative endpoints by the number
  of nodes, gather the node table's rows by the first and by the second endpoints (a change of float format on the
  table first, which is the identity on extended reals) and turn the bias into a one-row matrix. So the region finds
  exactly the two gathered arrays the reference computes, the weights as given, and the bias as its one row. After
  the region the host lines aggregate the region's output over the edges: the same scatter-adds by the unwrapped first
  endpoints, the same clipped counts, the same division as the reference. With the region's output array known to be
  the specification's edge features, the program's result is the aggregation of those.
-/
import proofs.«144747_j996432413183_1_alg».proof.Proof.Gen.KernelIdeal.Frame
import proofs.«144747_j996432413183_1_alg».proof.Proof.KernelArray
import proofs.«144747_j996432413183_1_alg».proof.Proof.RefEdge
import Idealize.ShloMosaic.Lib.StableHlo.Run
import Idealize.ShloMosaic.Lib.Pipeline.Value

set_option maxRecDepth 16384

noncomputable section

namespace Cert.KernelResult

open Cert.KernelIdeal Cert.KernelIdeal.Gen Cert.EdgeSpec Cert.KernelArray
open Idealize.ShloMosaic Idealize.ShloMosaic.TcCoe Idealize.ShloMosaic.ValueIdx Idealize.SL.Sem
open Idealize.ShloMosaic.StableHlo (after after_cons after_nil)

variable (m : (ℓ : Loc nD τ sig) → Buf (Elt Ideal) ℓ) (ρ : Dev nD → PrngReg)

/-! ## What the region finds -/

/-- The first input is the node table's rows gathered by the wrapped first endpoints. -/
theorem firstRows_eq (c : Dev nD) :
    firstRows m c = Cert.ReferenceIdeal.Read.val_main_v10 (F := Ideal)
      (m ((c : Thread nD τ).loc main_arg0)) (m ((c : Thread nD τ).loc main_arg1)) := by
  show StableHlo.after hostOps0 (fun b => m (c, b)) (Proc.devRef .tc main_v11) = _
  after_results
  rfl

/-- The second input is the node table's rows gathered by the wrapped second endpoints. -/
theorem secondRows_eq (c : Dev nD) :
    secondRows m c = Cert.ReferenceIdeal.Read.val_main_v17 (F := Ideal)
      (m ((c : Thread nD τ).loc main_arg0)) (m ((c : Thread nD τ).loc main_arg1)) := by
  show StableHlo.after hostOps0 (fun b => m (c, b)) (Proc.devRef .tc main_v18) = _
  after_results
  rfl

/-- The weights are the argument. -/
theorem weights_eq (c : Dev nD) : weights m c = m ((c : Thread nD τ).loc main_arg2) := V_main_arg2 m c

/-- The one-row bias is the bias vector reshaped. -/
theorem biasRow_eq (c : Dev nD) :
    biasRow m c = shapeCast S1x128 (m ((c : Thread nD τ).loc main_arg3) : FVec Ideal S128 .f32) shapeCasts_S128_S1x128 := by
  show StableHlo.after hostOps0 (fun b => m (c, b)) (Proc.devRef .tc main_v19) = _
  after_results
  rfl

/-- So its entries are the bias vector's. -/
theorem biasVec_eq (c : Dev nD) : biasVec m c = m ((c : Thread nD τ).loc main_arg3) := by
  funext i
  unfold biasVec
  rw [biasRow_eq]
  exact shapeCast_apply _ shapeCasts_S128_S1x128 (ix2 (0 : Fin 1) (i 0)) i
    (by rewrite [Shape.rowMajor_val_one, Shape.rowMajor_val_two]; show (i 0).val = 0 * 128 + (i 0).val; omega)

/-- The edge features the region leaves, over the program's arguments. -/
theorem feats_eq (c : Dev nD) :
    feats m c = edgeFeat
      (Cert.ReferenceIdeal.Read.val_main_v10 (F := Ideal) (m ((c : Thread nD τ).loc main_arg0)) (m ((c : Thread nD τ).loc main_arg1)))
      (Cert.ReferenceIdeal.Read.val_main_v17 (F := Ideal) (m ((c : Thread nD τ).loc main_arg0)) (m ((c : Thread nD τ).loc main_arg1)))
      (m ((c : Thread nD τ).loc main_arg2)) (m ((c : Thread nD τ).loc main_arg3)) := by
  unfold feats
  rw [firstRows_eq, secondRows_eq, weights_eq, biasVec_eq]

/-! ## The lines after the region -/

/-- The aggregation spelt with this program's own shape and dimension records: the summed feature rows over the
    clipped edge counts. -/
def aggregateHere (row : IVec S800000 32) (ef : FVec Ideal S800000x128 .f32) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 row) ef)
    (broadcastInDim S50000x128 ![0, 1] bcast_S50000x1_S50000x128_0_1
      (broadcastInDim S50000x1 ![0] bcast_S50000_S50000x1_0
        (maximumf (F := Ideal)
          (broadcastInDim S50000 ![] bcast_S_S50000 (id (constant (F := Ideal) S_ .f32 0x3F800000#32)))
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 row)
            (broadcastInDim S800000 ![] bcast_S_S800000 (constant (F := Ideal) S_ .f32 0x3F800000#32))))))

/-- It is the reference's aggregation: the two programs' records name the same shapes and dimension numbers. -/
theorem aggregateHere_eq (row : IVec S800000 32) (ef : FVec Ideal S800000x128 .f32) :
    aggregateHere row ef = Cert.RefEdge.aggregateBy row ef := rfl

/-! The clipping of the counts is a called function; its operations read and write their buffers through typed
    references, each transporting contents along an equation of buffer types that holds by computation. -/

/-- The lower bound `1` as the call receives it, -/
abbrev boundArg : StableHlo.TRef sig ⟨S_, .f32⟩ := StableHlo.TRef.of main_cst_5
/-- after the call's own conversion of it, -/
abbrev boundConv : StableHlo.TRef sig ⟨S_, .f32⟩ := StableHlo.TRef.of main_call0_v0
/-- and broadcast to one entry per node; -/
abbrev boundVec : StableHlo.TRef sig ⟨S50000, .f32⟩ := StableHlo.TRef.of main_call0_v1
/-- the counts the call clips, -/
abbrev countsArg : StableHlo.TRef sig ⟨S50000, .f32⟩ := StableHlo.TRef.of main_v27
/-- and its result. -/
abbrev clippedRes : StableHlo.TRef sig ⟨S50000, .f32⟩ := StableHlo.TRef.of main_v28

/-- The lower bound per node, through the call's buffers. -/
abbrev boundThrough : FVec Ideal S50000 .f32 :=
  boundVec.ofBuf (Val := Elt Ideal) (boundVec.toBuf (Val := Elt Ideal) (broadcastInDim S50000 ![] bcast_S_S50000
    (boundConv.ofBuf (Val := Elt Ideal) (boundConv.toBuf (Val := Elt Ideal)
      (id (boundArg.ofBuf (Val := Elt Ideal) (constant (F := Ideal) S_ .f32 0x3F800000#32)))))))

/-- The clipped counts, broadcast along the feature axis: through the call's buffers they are the plain maximum of
    the bound and the counts. -/
theorem clipped_counts (counts : FVec Ideal S50000 .f32) :
    broadcastInDim S50000x128 ![0, 1] bcast_S50000x1_S50000x128_0_1 (broadcastInDim S50000x1 ![0] bcast_S50000_S50000x1_0
      (clippedRes.toBuf (Val := Elt Ideal)
        (maximumf (F := Ideal) boundThrough (countsArg.ofBuf (Val := Elt Ideal) counts))))
    = broadcastInDim S50000x128 ![0, 1] bcast_S50000x1_S50000x128_0_1 (broadcastInDim S50000x1 ![0] bcast_S50000_S50000x1_0
      (maximumf (F := Ideal)
        (broadcastInDim S50000 ![] bcast_S_S50000 (id (constant (F := Ideal) S_ .f32 0x3F800000#32))) counts)) := rfl

/-- The lines after the region, run from any contents `Wv` of the core's buffers, leave in the result buffer the
    aggregation of what `Wv` holds in the region's output buffer by what it holds in the first-endpoint buffer. -/
theorem tail_of (Wv : Valuation τ sig (Elt Ideal)) :
    StableHlo.after (List.flatten [hostOps1, hostOps1_1, hostOps1_2]) Wv (Proc.devRef .tc main_v31)
      = Cert.RefEdge.aggregateBy (Wv (Proc.devRef .tc main_v1)) (Wv (Proc.devRef .tc main_v20)) := by
  simp only [hostOps1, hostOps1_1, hostOps1_2, List.flatten_cons, List.flatten_nil, List.append_nil, List.cons_append,
    List.nil_append]
  after_results_simp
  refine Eq.trans ?_ (aggregateHere_eq _ _)
  unfold aggregateHere
  generalize Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (Wv (Proc.devRef .tc main_v1))) (Wv (Proc.devRef .tc main_v20)) = sums
  generalize Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (Wv (Proc.devRef .tc main_v1)))
      (broadcastInDim S800000 ![] bcast_S_S800000 (constant (F := Ideal) S_ .f32 0x3F800000#32)) = counts
  exact congrArg (Host.divf (F := Ideal) sums) (clipped_counts counts)

/-- What the core's buffers hold when the region is left: the region's arrays as the run leaves them, every other
    buffer as the region found it. -/
abbrev exitVal (c : Dev nD) : Valuation τ sig (Elt Ideal) :=
  Pipeline.withArrays spec0 c (V0 m c) fun w => (dats m 0 c).arrAt w cfg0.N

/-- There the output buffer holds the region's output array, -/
theorem exit_feats (c : Dev nD) : exitVal m c (Proc.devRef .tc main_v20) = (dats m 0 c).arrAt 4 cfg0.N :=
  Pipeline.withArrays_arr spec0 launch0.win.arr_inj c _ _ 4

/-- and the first endpoints are still the endpoint array's first row. -/
theorem exit_rows (c : Dev nD) :
    exitVal m c (Proc.devRef .tc main_v1)
      = Cert.ReferenceIdeal.Read.val_main_v1 (F := Ideal) (m ((c : Thread nD τ).loc main_arg1)) := by
  refine (Pipeline.withArrays_of_ne spec0 c (V0 m c) _ main_v1
    (by exact (by decide : ∀ w, Pipeline.arrRef spec0 w ≠ main_v1))).trans ?_
  show StableHlo.after hostOps0 (fun b => m (c, b)) (Proc.devRef .tc main_v1) = _
  after_results
  rfl

/-- The program's result buffer after the lines that follow the region: the aggregation of the region's output
    array by the first endpoints. -/
theorem tail_result (c : Dev nD) :
    Pipeline.afterTail₀ cfgs (dats m) 0 (V0 m) [hostOps1, hostOps1_1, hostOps1_2] c main_v31
      = Cert.RefEdge.aggregate (m ((c : Thread nD τ).loc main_arg1)) ((dats m 0 c).arrAt 4 cfg0.N) := by
  unfold Pipeline.afterTail₀
  refine (tail_of (exitVal m c)).trans ?_
  rw [exit_feats, exit_rows]
  rfl

/-! ## The run -/

/-- Every weakly fair execution of the kernel program terminates with its result at the aggregation of the
    specification's edge features of the arguments, and the arguments as launched. -/
theorem run_result : θ_run defs (onTc (τ := τ) (main (F := Ideal))) ⟨m, fun _ => 0, ρ⟩ (fun r => ∀ c : Dev nD,
      r.2.mem ((c.tc : Thread nD τ).loc main_v31)
        = Cert.RefEdge.aggregate (m ((c.tc : Thread nD τ).loc main_arg1)) (edgeFeat
            (Cert.ReferenceIdeal.Read.val_main_v10 (F := Ideal) (m ((c.tc : Thread nD τ).loc main_arg0)) (m ((c.tc : Thread nD τ).loc main_arg1)))
            (Cert.ReferenceIdeal.Read.val_main_v17 (F := Ideal) (m ((c.tc : Thread nD τ).loc main_arg0)) (m ((c.tc : Thread nD τ).loc main_arg1)))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v31 (Pipeline.mem_restRefs_of main_v31 (by decide) (by decide))).trans
        ((tail_result m c).trans (by rw [feats_array, feats_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelResult

end
-- ==== Proof.lean ====
/-
  Equivalence over the extended reals of a graph edge-convolution kernel and its reference.

  Both programs take a node table `x` (50000 rows of 64), an endpoint array (two rows of 800000 node numbers),
  weights `W` (128 by 128) and a bias `b` (128). For every edge they form a feature row of 128 entries from the two
  table rows its endpoints pick, `c` (first endpoint) and `n` (second endpoint):

      feature o = max ( Σ_{k<128} [c, n − c] k · W o k + b o , 0 ),

  where `[c, n − c]` is `c` followed by `n − c`; then they add each edge's feature row into the row of the node its
  first endpoint names, count the edges per node, raise each count to at least one, and divide.

  The reference computes the 128-term product as written. The kernel program gathers `c` and `n` on the host, and its
  region, 8000 edges at a time, computes `Σ_{k<64} c k · W o k + Σ_{k<64} (n k − c k) · W o (64 + k) + b o`, clipped at
  zero: the same sum cut at its middle. The aggregation after the region is the reference's, operation for operation.
  So the claim comes down to one regrouping of a finite sum, which holds on the extended reals as in any commutative
  monoid; no input needs to be finite for it.

  The pieces: `EdgeSpec` states an edge's feature entry and the cut of the sum; `RefEdge` reads the reference's edge
  features at an entry and names the shared aggregation; `KernelPayload` reads the region body's arithmetic at an entry of
  a block; `KernelArray` assembles the 100 blocks into the whole edge-feature array; `KernelResult` carries that through
  the host lines before and after the region. The three runs are the generated ones; nothing was rewritten when the
  kernel was idealized, so that conjunct is trivial.
-/
import proofs.«144747_j996432413183_1_alg».proof.Defs
import proofs.«144747_j996432413183_1_alg».proof.Proof.Gen.Kernel
import proofs.«144747_j996432413183_1_alg».proof.Proof.Gen.Kernel.Skeleton
import proofs.«144747_j996432413183_1_alg».proof.Proof.Gen.Kernel.Launch
import proofs.«144747_j996432413183_1_alg».proof.Proof.Gen.Kernel.Points
import proofs.«144747_j996432413183_1_alg».proof.Proof.Gen.Kernel.Frame
import proofs.«144747_j996432413183_1_alg».proof.Proof.Gen.KernelIdeal
import proofs.«144747_j996432413183_1_alg».proof.Proof.Gen.KernelIdeal.Skeleton
import proofs.«144747_j996432413183_1_alg».proof.Proof.Gen.KernelIdeal.Launch
import proofs.«144747_j996432413183_1_alg».proof.Proof.Gen.KernelIdeal.Points
import proofs.«144747_j996432413183_1_alg».proof.Proof.Gen.KernelIdeal.Frame
import proofs.«144747_j996432413183_1_alg».proof.Proof.Gen.ReferenceIdeal
import proofs.«144747_j996432413183_1_alg».proof.Proof.Gen.Pre_finite_inputs
import proofs.«144747_j996432413183_1_alg».proof.Proof.Gen.ReferenceIdeal.Run
import proofs.«144747_j996432413183_1_alg».proof.Proof.Gen.ReferenceIdeal.Read
import proofs.«144747_j996432413183_1_alg».proof.Proof.RefEdge
import proofs.«144747_j996432413183_1_alg».proof.Proof.KernelResult
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does it read at the extended reals. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end at the aggregation of the same edge features. -/
theorem algebraic : Cert.algebraic_KernelIdeal_ReferenceIdeal := by
  intro m ρ m' ρ' _ hagree
  refine ⟨_, Cert.KernelResult.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.RefEdge.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
